-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S100000x256 : Shape := ⟨2, ![100000, 256]⟩
abbrev S50000 : Shape := ⟨1, ![50000]⟩
abbrev S500000 : Shape := ⟨1, ![500000]⟩
abbrev S1280x256 : Shape := ⟨2, ![1280, 256]⟩
abbrev S256 : Shape := ⟨1, ![256]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S1280x256 : S_.BroadcastsInDim S1280x256 (![] : Fin 0 → Fin S1280x256.rank)
  reducesTo_S1280x256_S_d0_1 : S1280x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg7 : FVec F S256x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S50000x256 .f32) (main_arg1 : FVec F S100000x256 .f32) (main_arg2 : IVec S50000 32) (main_arg3 : IVec S500000 32) (main_arg4 : IVec S500000 32) (main_arg5 : FVec F S1280x256 .f32) (main_arg6 : FVec F S256 .f32) (main_arg7 : FVec F S256x256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S1280x256 .f32 := Host.absf main_arg5
  let main_cst_2 : FVec F S_ .f32 := constant S_ .f32 0x7F800000#32
  let main_v10 : FVec F S1280x256 .f32 := broadcastInDim S1280x256 ![] bcast_S_S1280x256 main_cst_2
  let main_v11 : IVec S1280x256 1 := cmpf .olt main_v9 main_v10
  let main_c_3 : IVec S_ 1 := constantI S_ 1 1#1
  let main_v12 : IVec S_ 1 := (fun x v => Host.reduce IntOp.andi x v reducesTo_S1280x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_v13 main_v16
-- ==== Kernel.lean ====
abbrev S50000x256 : Shape := ⟨2, ![50000, 256]⟩
abbrev S100000x256 : Shape := ⟨2, ![100000, 256]⟩
abbrev S50000 : Shape := ⟨1, ![50000]⟩
abbrev S500000 : Shape := ⟨1, ![500000]⟩
abbrev S1280x256 : Shape := ⟨2, ![1280, 256]⟩
abbrev S256 : Shape := ⟨1, ![256]⟩
abbrev S256x256 : Shape := ⟨2, ![256, 256]⟩
abbrev S_ : Shape := ⟨0, ![]⟩
abbrev S50000x1 : Shape := ⟨2, ![50000, 1]⟩
abbrev S500000x1 : Shape := ⟨2, ![500000, 1]⟩
abbrev S500000x256 : Shape := ⟨2, ![500000, 256]⟩
abbrev S100000x1280 : Shape := ⟨2, ![100000, 1280]⟩
abbrev S1x256 : Shape := ⟨2, ![1, 256]⟩
abbrev S2000x1280 : Shape := ⟨2, ![2000, 1280]⟩
abbrev S2000x256 : Shape := ⟨2, ![2000, 256]⟩

abbrev nBuf : Space → Nat
  | .hbm => 35
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S100000x256, .f32⟩
  | .hbm, ⟨2, _⟩ => ⟨S50000, .i32⟩
  | .hbm, ⟨3, _⟩ => ⟨S500000, .i32⟩
  | .hbm, ⟨4, _⟩ => ⟨S500000, .i32⟩
  | .hbm, ⟨5, _⟩ => ⟨S1280x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S_, .f32⟩
  | .hbm, ⟨10, _⟩ => ⟨S100000x256, .f32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S100000x256, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x256, .f32⟩
  | .hbm, ⟨29, _⟩ => ⟨S100000x1280, .f32⟩
  | .hbm, ⟨30, _⟩ => ⟨S1280x256, .bf16⟩
  | .hbm, ⟨31, _⟩ => ⟨S256x256, .bf16⟩
  | .hbm, ⟨32, _⟩ => ⟨S1x256, .f32⟩
  | .hbm, ⟨33, _⟩ => ⟨S1x256, .f32⟩
  | .hbm, ⟨34, _⟩ => ⟨S100000x256, .f32⟩
  | .local _ .vmem, ⟨0, _⟩ => ⟨S2000x1280, .f32⟩
  | .local _ .vmem, ⟨1, _⟩ => ⟨S2000x1280, .f32⟩
  | .local _ .vmem, ⟨2, _⟩ => ⟨S1280x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S100000x256 : S_.BroadcastsInDim S100000x256 (![] : Fin 0 → Fin S100000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S500000 : S_.BroadcastsInDim S500000 (![] : Fin 0 → Fin S500000.rank)
  bcast_S500000_S500000x1_0 : S500000.BroadcastsInDim S500000x1 (![0] : Fin 1 → Fin S500000x1.rank)
  shapeCasts_S500000x256_S100000x1280 : S500000x256.ShapeCasts S100000x1280
  bitsLt_bf16_f32 : FTy.bits .bf16 < FTy.bits .f32
  shapeCasts_S256_S1x256 : S256.ShapeCasts S1x256
  inb_S2000x1280_S2000x1280_0_0 : ∀ a, (![0, 0] : Fin 2 → Nat) a + S2000x1280.size a ≤ S2000x1280.size a
  h_S2000x1280 : 0 < S2000x1280.numel
  shapeCasts_S2000x1280_S2000x1280 : S2000x1280.ShapeCasts S2000x1280
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  scatter_S100000x256_S50000x1_S50000x256_1_0_0_1_wf : ScatterDims.WF S100000x256 S50000x1 S50000x256 [1] [0] [0] 1
  gather_S100000x256_S500000x1_S500000x256_1_0_n_n_0_1_1256_wf : GatherDims.WF S100000x256 S500000x1 S500000x256 [1] [0] [] [0] [] 1 ![1, 256]
  dot_S2000x1280_S1280x256_S2000x256_1_0_0_1_n_n_wf : DotDims.WF S2000x1280 S1280x256 S2000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1280.size a ≤ S100000x1280.size a
  hwx0_0 : ∀ i : grid0.Coords, EltTy.bits .f32 = 32 ∨ (Rect.block (s := S100000x1280) S2000x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S1280x256.size a
  hwx0_1 : ∀ i : grid0.Coords, EltTy.bits .bf16 = 32 ∨ (Rect.block (s := S1280x256) S1280x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)

variable [Facts₀]

def scatter_S100000x256_S50000x1_S50000x256_1_0_0_1 : ScatterDims S100000x256 S50000x1 S50000x256 where
  updateWindowDims := [1]
  insertedWindowDims := [0]
  scatterDimsToOperandDims := [0]
  indexVectorDim := 1
  wf := scatter_S100000x256_S50000x1_S50000x256_1_0_0_1_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S2000x1280_S1280x256_S2000x256_1_0_0_1_n_n : DotDims S2000x1280 S1280x256 S2000x256 where
  lhsContracting := [1]
  rhsContracting := [0]
  lhsNonContracting := [0]
  rhsNonContracting := [1]
  lhsBatch := []
  rhsBatch := []
  wf := dot_S2000x1280_S1280x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v15) S2000x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1280x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S100000x256 : Shape := ⟨2, ![100000, 256]⟩
abbrev S50000 : Shape := ⟨1, ![50000]⟩
abbrev S500000 : Shape := ⟨1, ![500000]⟩
abbrev S1280x256 : Shape := ⟨2, ![1280, 256]⟩
abbrev S256 : Shape := ⟨1, ![256]⟩
abbrev S256x256 : Shape := ⟨2, ![256, 256]⟩
abbrev S_ : Shape := ⟨0, ![]⟩
abbrev S50000x1 : Shape := ⟨2, ![50000, 1]⟩
abbrev S500000x1 : Shape := ⟨2, ![500000, 1]⟩
abbrev S500000x256 : Shape := ⟨2, ![500000, 256]⟩
abbrev S100000x1280 : Shape := ⟨2, ![100000, 1280]⟩
abbrev S1x256 : Shape := ⟨2, ![1, 256]⟩

abbrev nBuf : Space → Nat
  | .hbm => 41
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S100000x256, .f32⟩
  | .hbm, ⟨2, _⟩ => ⟨S50000, .i32⟩
  | .hbm, ⟨3, _⟩ => ⟨S500000, .i32⟩
  | .hbm, ⟨4, _⟩ => ⟨S500000, .i32⟩
  | .hbm, ⟨5, _⟩ => ⟨S1280x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S_, .f32⟩
  | .hbm, ⟨10, _⟩ => ⟨S100000x256, .f32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S100000x256, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x256, .f32⟩
  | .hbm, ⟨29, _⟩ => ⟨S100000x1280, .f32⟩
  | .hbm, ⟨30, _⟩ => ⟨S100000x256, .f32⟩
  | .hbm, ⟨31, _⟩ => ⟨S1x256, .f32⟩
  | .hbm, ⟨32, _⟩ => ⟨S100000x256, .f32⟩
  | .hbm, ⟨33, _⟩ => ⟨S100000x256, .f32⟩
  | .hbm, ⟨34, _⟩ => ⟨S_, .f32⟩
  | .hbm, ⟨35, _⟩ => ⟨S100000x256, .f32⟩
  | .hbm, ⟨36, _⟩ => ⟨S100000x256, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S500000 : S_.BroadcastsInDim S500000 (![] : Fin 0 → Fin S500000.rank)
  bcast_S500000_S500000x1_0 : S500000.BroadcastsInDim S500000x1 (![0] : Fin 1 → Fin S500000x1.rank)
  shapeCasts_S500000x256_S100000x1280 : S500000x256.ShapeCasts S100000x1280
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000x256_S50000x1_S50000x256_1_0_0_1_wf : ScatterDims.WF S100000x256 S50000x1 S50000x256 [1] [0] [0] 1
  gather_S100000x256_S500000x1_S500000x256_1_0_n_n_0_1_1256_wf : GatherDims.WF S100000x256 S500000x1 S500000x256 [1] [0] [] [0] [] 1 ![1, 256]
  dot_S100000x1280_S1280x256_S100000x256_1_0_0_1_n_n_wf : DotDims.WF S100000x1280 S1280x256 S100000x256 [1] [0] [0] [1] [] []
  dot_S100000x256_S256x256_S100000x256_1_0_0_1_n_n_wf : DotDims.WF S100000x256 S256x256 S100000x256 [1] [0] [0] [1] [] []

variable [Facts₀]

def scatter_S100000x256_S50000x1_S50000x256_1_0_0_1 : ScatterDims S100000x256 S50000x1 S50000x256 where
  updateWindowDims := [1]
  insertedWindowDims := [0]
  scatterDimsToOperandDims := [0]
  indexVectorDim := 1
  wf := scatter_S100000x256_S50000x1_S50000x256_1_0_0_1_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S100000x1280_S1280x256_S100000x256_1_0_0_1_n_n : DotDims S100000x1280 S1280x256 S100000x256 where
  lhsContracting := [1]
  rhsContracting := [0]
  lhsNonContracting := [0]
  rhsNonContracting := [1]
  lhsBatch := []
  rhsBatch := []
  wf := dot_S100000x1280_S1280x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.MlpSpec.lean ====
/-
  The two-layer perceptron on the extended reals, one output entry at a time.

  An output entry depends on one row `x` of the gathered feature matrix (1280 numbers), on the whole first weight
  matrix `w1` and first bias `b1`, on one column `w2` of the second weight matrix and on one entry `b2` of the
  second bias:

      entry = Σ_k max (Σ_j x_j · w1_{j,k} + b1_k, 0) · w2_k + b2.

  The sums run in the natural order of their index, each product has the feature (or the hidden activation) on the
  left and the weight on the right, and the zero the hidden layer is clamped at is kept as the float word it is
  printed as, so that the two programs' terms meet this one without any arithmetic on the extended reals.
-/
import Idealize.ShloMosaic.PureOps.Ideal
import Idealize.ShloMosaic.Lib.ValueIdx

noncomputable section

namespace Cert.Mlp

open Idealize.ShloMosaic Idealize.ShloMosaic.ValueIdx
open scoped BigOperators

/-- The hidden activation `k` of a feature row: the row against column `k` of the first weight matrix, plus the
    bias, clamped below at zero. -/
def hidden (x : Fin 1280 → EReal) (w1 : Fin 1280 → Fin 256 → EReal) (b1 : Fin 256 → EReal) (k : Fin 256) : EReal :=
  max ((∑ j : Fin 1280, x j * w1 j k) + b1 k) (Ideal.ofBits .f32 0x00000000#32)

/-- One output entry: the hidden activations against a column of the second weight matrix, plus the bias. -/
def entry (x : Fin 1280 → EReal) (w1 : Fin 1280 → Fin 256 → EReal) (b1 : Fin 256 → EReal) (w2 : Fin 256 → EReal)
    (b2 : EReal) : EReal :=
  (∑ k : Fin 256, hidden x w1 b1 k * w2 k) + b2

/-- The whole output, 100000 rows of 256 entries: entry `(r, c)` is `entry` of row `r` of the features, column `c`
    of the second weights and entry `c` of the second bias. -/
def mlp (X : (⟨2, ![100000, 1280]⟩ : Shape).Idx → EReal) (W1 : (⟨2, ![1280, 256]⟩ : Shape).Idx → EReal)
    (b1 : (⟨1, ![256]⟩ : Shape).Idx → EReal) (W2 : (⟨2, ![256, 256]⟩ : Shape).Idx → EReal)
    (b2 : (⟨1, ![256]⟩ : Shape).Idx → EReal) : (⟨2, ![100000, 256]⟩ : Shape).Idx → EReal :=
  fun i => entry (fun j => X (ix2 (i 0) j)) (fun j k => W1 (ix2 j k)) (fun k => b1 (ix1 k))
    (fun k => W2 (ix2 k (i 1))) (b2 (ix1 (i 1)))

end Cert.Mlp

end
-- ==== Proof.KernelTile.lean ====
/-
  What the kernel body stores, read at an index.

  The body works on a tile of 2000 feature rows. It multiplies the tile by the first weight matrix into a zero
  accumulator, adds the first bias (held as one row, repeated down the tile), clamps at zero, multiplies by the
  second weight matrix into a zero accumulator and adds the second bias row. On the extended reals the changes of
  float format in between are the identity and a product into a zero accumulator is the plain sum over the
  contracted axis, so entry `(p, q)` of the stored tile is the perceptron's entry of row `p` of the tile.
-/
import proofs.«104680_j22625887715771_1_alg».proof.Proof.Gen.KernelIdeal.Skeleton
import proofs.«104680_j22625887715771_1_alg».proof.Proof.LibPlainMatmul
import proofs.«104680_j22625887715771_1_alg».proof.Proof.MlpSpec
import Idealize.ShloMosaic.Lib.Pipeline.Value

noncomputable section

namespace Cert.KernelIdeal.Tile

open Cert.KernelIdeal Cert.KernelIdeal.Gen Idealize.ShloMosaic Idealize.ShloMosaic.TcCoe Idealize.ShloMosaic.ValueIdx
open scoped BigOperators

/-- The first product of the body: a tile of rows against the first weight matrix. -/
theorem layer1_apply (l : FVec Ideal S2000x1280 .bf16) (r : FVec Ideal S1280x256 .bf16) (p : Fin 2000) (k : Fin 256) :
    matmul dot_S2000x1280_S1280x256_S2000x256_1_0_0_1_n_n none l r (constant S2000x256 .f32 0x00000000#32) (ix2 p k)
      = ∑ j : Fin 1280, l (ix2 p j) * r (ix2 j k) :=
  Cert.PlainMatmul.matmul_zero_apply (M := 2000) (K := 1280) (N := 256)
    dot_S2000x1280_S1280x256_S2000x256_1_0_0_1_n_n rfl rfl rfl rfl rfl rfl none l r p k

/-- The second product of the body: the tile's hidden activations against the second weight matrix. -/
theorem layer2_apply (l : FVec Ideal S2000x256 .bf16) (r : FVec Ideal S256x256 .bf16) (p : Fin 2000) (q : Fin 256) :
    matmul dot_S2000x256_S256x256_S2000x256_1_0_0_1_n_n none l r (constant S2000x256 .f32 0x00000000#32) (ix2 p q)
      = ∑ k : Fin 256, l (ix2 p k) * r (ix2 k q) :=
  Cert.PlainMatmul.matmul_zero_apply (M := 2000) (K := 256) (N := 256)
    dot_S2000x256_S256x256_S2000x256_1_0_0_1_n_n rfl rfl rfl rfl rfl rfl none l r p q

/-- A bias held as one row and repeated down the tile, read at `(p, q)`, is the row's entry `q`. -/
theorem biasRow_apply (b : FVec Ideal S1x256 .f32) (p : Fin 2000) (q : Fin 256) :
    broadcastTo S2000x256 b broadcasts_S1x256_S2000x256 (ix2 p q) = b (ix2 0 q) :=
  broadcastTo_apply b broadcasts_S1x256_S2000x256 (ix2 p q) (ix2 0 q) (fun a => by
    match a with
    | ⟨0, _⟩ => rfl
    | ⟨1, _⟩ => rfl)

/-- THE STORED TILE at `(p, q)`: the perceptron's entry of row `p` of the feature tile. -/
theorem pay_apply (x0 : Vec Ideal S2000x1280 .f32) (x1 : Vec Ideal S1280x256 .bf16) (x2 : Vec Ideal S1x256 .f32)
    (x3 : Vec Ideal S256x256 .bf16) (x4 : Vec Ideal S1x256 .f32) (p : Fin 2000) (q : Fin 256) :
    k0_pay1 (F := Ideal) x0 x1 x2 x3 x4 (ix2 p q)
      = Cert.Mlp.entry (fun j => x0 (ix2 p j)) (fun j k => x1 (ix2 j k)) (fun k => x2 (ix2 0 k))
          (fun k => x3 (ix2 k q)) (x4 (ix2 0 q)) := by
  unfold k0_pay1 Cert.Mlp.entry Cert.Mlp.hidden
  simp only [shapeCast_self]
  show FloatOps.addf (F := Ideal) (φ := .f32) (matmul dot_S2000x256_S256x256_S2000x256_1_0_0_1_n_n none _ x3 (constant S2000x256 .f32 0x00000000#32) (ix2 p q))
      (broadcastTo S2000x256 x4 broadcasts_S1x256_S2000x256 (ix2 p q)) = _
  rw [layer2_apply, biasRow_apply]
  refine congrArg (· + x4 (ix2 0 q)) (Finset.sum_congr rfl fun k _ => congrArg (· * x3 (ix2 k q)) ?_)
  show FloatOps.maximumf (F := Ideal) (φ := .f32) (FloatOps.addf (F := Ideal) (φ := .f32) (matmul dot_S2000x1280_S1280x256_S2000x256_1_0_0_1_n_n none _ x1 (constant S2000x256 .f32 0x00000000#32) (ix2 p k))
      (broadcastTo S2000x256 x2 broadcasts_S1x256_S2000x256 (ix2 p k))) _ = _
  rw [layer1_apply, biasRow_apply]
  rfl

end Cert.KernelIdeal.Tile

end
-- ==== Proof.KernelValue.lean ====
/-
  The kernel's output array after the run, as one function of the arrays the region stages.

  The grid has 50 points. Point `t` stages rows `2000·t … 2000·t + 1999` of the feature matrix, the two weight
  matrices and the two bias rows whole, and writes back rows `2000·t … 2000·t + 1999` of the output. What it
  writes at `(p, q)` of its tile is the perceptron's entry of feature row `2000·t + p` (the tile lemma), which is
  the entry `(2000·t + p, q)` of ONE whole-array function; the 50 tiles cover every row (row `r` lies in tile
  `r / 2000`), so after the run the output array is that function.
-/
import proofs.«104680_j22625887715771_1_alg».proof.Proof.Gen.KernelIdeal.Value
import proofs.«104680_j22625887715771_1_alg».proof.Proof.KernelTile

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The five arrays the region stages, as it finds them: the gathered features, the first weights, the first
    bias as one row, the second weights, the second bias as one row. -/
abbrev feat (c : Dev nD) : Vec Ideal S100000x1280 .f32 := V m c main_v15
abbrev wt1 (c : Dev nD) : Vec Ideal S1280x256 .bf16 := V m c main_v16
abbrev bias1 (c : Dev nD) : Vec Ideal S1x256 .f32 := V m c main_v18
abbrev wt2 (c : Dev nD) : Vec Ideal S256x256 .bf16 := V m c main_v17
abbrev bias2 (c : Dev nD) : Vec Ideal S1x256 .f32 := V m c main_v19

/-- The output array as ONE function of those five: entry `(r, q)` is the perceptron's entry of feature row `r`. -/
def out (c : Dev nD) : Vec Ideal S100000x256 .f32 := fun i =>
  Cert.Mlp.entry (fun j => feat m c (ix2 (i 0) j)) (fun j k => wt1 m c (ix2 j k)) (fun k => bias1 m c (ix2 0 k))
    (fun k => wt2 m c (ix2 k (i 1))) (bias2 m c (ix2 0 (i 1)))

theorem offsets_zero : (![0, 0] : Fin 2 → Nat) = fun _ => 0 := funext fun a => by fin_cases a <;> rfl

/-- The printed index maps over the 50 points: the feature and output windows are at block row `t`, every other
    block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := lt_of_lt_of_eq t.isLt N_0

/-! ## Each staged block, read at coordinates

A block is a 2000 × 1280, 1280 × 256, 1 × 256, 256 × 256 or 2000 × 256 array; its positions in the window's array are
a map between index sets of those literal shapes. -/

/-- Point `t`'s blocks of the five staged arrays. -/
abbrev featBlk (c : Dev nD) (t : Fin cfg0.N) : Vec Ideal S2000x1280 .f32 := iblk m c 0 t
abbrev wt1Blk (c : Dev nD) (t : Fin cfg0.N) : Vec Ideal S1280x256 .bf16 := iblk m c 1 t
abbrev bias1Blk (c : Dev nD) (t : Fin cfg0.N) : Vec Ideal S1x256 .f32 := iblk m c 2 t
abbrev wt2Blk (c : Dev nD) (t : Fin cfg0.N) : Vec Ideal S256x256 .bf16 := iblk m c 3 t
abbrev bias2Blk (c : Dev nD) (t : Fin cfg0.N) : Vec Ideal S1x256 .f32 := iblk m c 4 t

/-- Where an index of point `t`'s block sits in the window's array. -/
def featPos (t : Fin cfg0.N) : S2000x1280.Idx → S100000x1280.Idx := ((cfg0.win 0).blk t).view.emb
def wt1Pos (t : Fin cfg0.N) : S1280x256.Idx → S1280x256.Idx := ((cfg0.win 1).blk t).view.emb
def bias1Pos (t : Fin cfg0.N) : S1x256.Idx → S1x256.Idx := ((cfg0.win 2).blk t).view.emb
def wt2Pos (t : Fin cfg0.N) : S256x256.Idx → S256x256.Idx := ((cfg0.win 3).blk t).view.emb
def bias2Pos (t : Fin cfg0.N) : S1x256.Idx → S1x256.Idx := ((cfg0.win 4).blk t).view.emb
def outPos (t : Fin cfg0.N) : S2000x256.Idx → S100000x256.Idx := ((cfg0.win 5).blk t).view.emb

/-- Row `p` of point `t`'s feature tile is row `2000·t + p` of the feature matrix. -/
theorem featPos_eq (t : Fin cfg0.N) (p : Fin 2000) (j : Fin 1280) (r : Fin 100000)
    (hr : r.val = t.val * 2000 + p.val) : featPos t (ix2 p j) = ix2 r j := by
  obtain ⟨e0, e1, -⟩ := idx_facts t
  funext a; apply Fin.ext
  match a with
  | ⟨0, _⟩ => show win0_0.index t (0 : Fin 2) * 2000 + 1 * p.val = r.val; omega
  | ⟨1, _⟩ => show win0_0.index t (1 : Fin 2) * 1280 + 1 * j.val = j.val; omega

/-- The first weight matrix is staged whole. -/
theorem wt1Pos_eq (t : Fin cfg0.N) (j : Fin 1280) (k : Fin 256) : wt1Pos t (ix2 j k) = ix2 j k := by
  obtain ⟨-, -, e0, e1, -⟩ := idx_facts t
  funext a; apply Fin.ext
  match a with
  | ⟨0, _⟩ => show win0_1.index t (0 : Fin 2) * 1280 + 1 * j.val = j.val; omega
  | ⟨1, _⟩ => show win0_1.index t (1 : Fin 2) * 256 + 1 * k.val = k.val; omega

/-- The first bias row is staged whole. -/
theorem bias1Pos_eq (t : Fin cfg0.N) (k : Fin 256) : bias1Pos t (ix2 0 k) = ix2 0 k := by
  obtain ⟨-, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 256 + 1 * k.val = k.val; omega

/-- The second weight matrix is staged whole. -/
theorem wt2Pos_eq (t : Fin cfg0.N) (k : Fin 256) (q : Fin 256) : wt2Pos t (ix2 k q) = ix2 k q := by
  obtain ⟨-, -, -, -, -, -, e0, e1, -⟩ := idx_facts t
  funext a; apply Fin.ext
  match a with
  | ⟨0, _⟩ => show win0_3.index t (0 : Fin 2) * 256 + 1 * k.val = k.val; omega
  | ⟨1, _⟩ => show win0_3.index t (1 : Fin 2) * 256 + 1 * q.val = q.val; omega

/-- The second bias row is staged whole. -/
theorem bias2Pos_eq (t : Fin cfg0.N) (q : Fin 256) : bias2Pos t (ix2 0 q) = ix2 0 q := by
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 256 + 1 * q.val = q.val; omega

/-- Entry `(p, q)` of point `t`'s output tile sits at `(2000·t + p, q)` of the output array. -/
theorem outPos_eq (t : Fin cfg0.N) (p : Fin 2000) (q : Fin 256) (r : Fin 100000) (hr : r.val = t.val * 2000 + p.val) :
    outPos t (ix2 p q) = ix2 r q := by
  obtain ⟨-, -, -, -, -, -, -, -, -, -, e0, e1⟩ := idx_facts t
  funext a; apply Fin.ext
  match a with
  | ⟨0, _⟩ => show win0_5.index t (0 : Fin 2) * 2000 + 1 * p.val = r.val; omega
  | ⟨1, _⟩ => show win0_5.index t (1 : Fin 2) * 256 + 1 * q.val = q.val; omega

/-! A block is its array read at the block's positions, whatever the array holds: the statement is about the window
alone, so it is made for ANY contents `W` of the core's buffers and then read at the contents the region finds. -/

section
variable {c : Dev nD} (W : (b : Ref sig .tc) → Buf (Elt Ideal) ((c : Thread nD τ).loc b))

theorem read_feat (t : Fin cfg0.N) (y : S2000x1280.Idx) :
    ((cfg0.win 0).blk t).view.read (Elt Ideal) (W (Pipeline.arrRef spec0 0)) y
      = (W main_v15 : Vec Ideal S100000x1280 .f32) (featPos t y) := rfl
theorem read_wt1 (t : Fin cfg0.N) (y : S1280x256.Idx) :
    ((cfg0.win 1).blk t).view.read (Elt Ideal) (W (Pipeline.arrRef spec0 1)) y
      = (W main_v16 : Vec Ideal S1280x256 .bf16) (wt1Pos t y) := rfl
theorem read_bias1 (t : Fin cfg0.N) (y : S1x256.Idx) :
    ((cfg0.win 2).blk t).view.read (Elt Ideal) (W (Pipeline.arrRef spec0 2)) y
      = (W main_v18 : Vec Ideal S1x256 .f32) (bias1Pos t y) := rfl
theorem read_wt2 (t : Fin cfg0.N) (y : S256x256.Idx) :
    ((cfg0.win 3).blk t).view.read (Elt Ideal) (W (Pipeline.arrRef spec0 3)) y
      = (W main_v17 : Vec Ideal S256x256 .bf16) (wt2Pos t y) := rfl
theorem read_bias2 (t : Fin cfg0.N) (y : S1x256.Idx) :
    ((cfg0.win 4).blk t).view.read (Elt Ideal) (W (Pipeline.arrRef spec0 4)) y
      = (W main_v19 : Vec Ideal S1x256 .f32) (bias2Pos t y) := rfl

end

theorem featBlk_apply (c : Dev nD) (t : Fin cfg0.N) (y : S2000x1280.Idx) : featBlk m c t y = feat m c (featPos t y) := by
  show iblk m c 0 t y = _
  unfold iblk
  exact read_feat (V m c) t y
theorem wt1Blk_apply (c : Dev nD) (t : Fin cfg0.N) (y : S1280x256.Idx) : wt1Blk m c t y = wt1 m c (wt1Pos t y) := by
  show iblk m c 1 t y = _
  unfold iblk
  exact read_wt1 (V m c) t y
theorem bias1Blk_apply (c : Dev nD) (t : Fin cfg0.N) (y : S1x256.Idx) : bias1Blk m c t y = bias1 m c (bias1Pos t y) := by
  show iblk m c 2 t y = _
  unfold iblk
  exact read_bias1 (V m c) t y
theorem wt2Blk_apply (c : Dev nD) (t : Fin cfg0.N) (y : S256x256.Idx) : wt2Blk m c t y = wt2 m c (wt2Pos t y) := by
  show iblk m c 3 t y = _
  unfold iblk
  exact read_wt2 (V m c) t y
theorem bias2Blk_apply (c : Dev nD) (t : Fin cfg0.N) (y : S1x256.Idx) : bias2Blk m c t y = bias2 m c (bias2Pos t y) := by
  show iblk m c 4 t y = _
  unfold iblk
  exact read_bias2 (V m c) t y

/-! ## What a point writes back, the cover, and the array after the run -/

/-- The tile point `t` stores is `out` read at the tile's positions in the output array. -/
theorem tile_eq (c : Dev nD) (t : Fin cfg0.N) :
    k0_pay1 (F := Ideal) (featBlk m c t) (wt1Blk m c t) (bias1Blk m c t) (wt2Blk m c t) (bias2Blk m c t)
      = fun y => out m c (outPos t y) := by
  funext y
  obtain ⟨p, q, rfl⟩ : ∃ (p : Fin 2000) (q : Fin 256), y = ix2 p q := ⟨y 0, y 1, eq_ix2 y⟩
  have ht := point_lt t
  have hp : p.val < 2000 := p.isLt
  rw [outPos_eq t p q ⟨t.val * 2000 + p.val, by omega⟩ rfl]
  refine (Tile.pay_apply (featBlk m c t) (wt1Blk m c t) (bias1Blk m c t) (wt2Blk m c t) (bias2Blk m c t) p q).trans ?_
  show _ = Cert.Mlp.entry (fun j => feat m c (ix2 ⟨t.val * 2000 + p.val, by omega⟩ j)) (fun j k => wt1 m c (ix2 j k))
    (fun k => bias1 m c (ix2 0 k)) (fun k => wt2 m c (ix2 k q)) (bias2 m c (ix2 0 q))
  simp only [featBlk_apply, wt1Blk_apply, bias1Blk_apply, wt2Blk_apply, bias2Blk_apply,
    featPos_eq t p _ ⟨t.val * 2000 + p.val, by omega⟩ rfl, wt1Pos_eq, bias1Pos_eq, wt2Pos_eq, bias2Pos_eq]

/-- The output window is never cut at the array's end: what a write-back moves of ANY block contents is all of
    them. -/
theorem cut_out {α : Type} (t : Fin cfg0.N) (X : S2000x256.Idx → α) : (cfg0.win 5).cut (grid0.coords t) X = X := rfl

/-- Block `t` of ANY contents of the output array is the contents at the block's positions. -/
theorem read_out (t : Fin cfg0.N) (G : Vec Ideal S100000x256 .f32) :
    ((cfg0.win 5).blk t).view.read (Elt Ideal) G = fun y => G (outPos t y) := rfl

/-- WHAT POINT `t` WRITES BACK is block `t` of `out`. -/
theorem flushed_eq (c : Dev nD) (t : Fin cfg0.N) :
    (dats m 0 c).flushed 5 t = ((cfg0.win 5).blk t).view.read (Elt Ideal) (out m c) := by
  rw [Value.flushed5, cut_out, read_out]
  unfold out0_5
  rw [View.canon_unit_zero offsets_zero]
  simp only [View.ld_unit_zero (S := S2000x1280) offsets_zero, View.ld_unit_zero (S := S1280x256) offsets_zero,
    View.ld_unit_zero (S := S1x256) offsets_zero, View.ld_unit_zero (S := S256x256) offsets_zero]
  exact tile_eq m c t

/-- An index of the output array is in point `t`'s block iff each coordinate is in the block's range on its axis. -/
theorem mem_blk (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v20).slice (win0_5.rect t)).set ↔ _
  rw [View.set_slice_whole, Rect.mem_set_unit]
  exact Iff.rfl

/-- THE COVER: row `r` of the output lies in the block of point `r / 2000`, and every point writes back. -/
theorem cover (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  refine ⟨⟨(i 0).val / 2000, by show _ < grid0.N; rw [N_0]; omega⟩, flush0_5 _, ?_⟩
  rw [mem_blk]
  obtain ⟨-, -, -, -, -, -, -, -, -, -, e0, e1⟩ := idx_facts ⟨(i 0).val / 2000, by show _ < grid0.N; rw [N_0]; omega⟩
  have e0' : win0_5.index ⟨(i 0).val / 2000, by show _ < grid0.N; rw [N_0]; omega⟩ (0 : Fin 2) = (i 0).val / 2000 := e0
  intro a
  match a with
  | ⟨0, _⟩ =>
    show win0_5.index _ (0 : Fin 2) * 2000 ≤ (i 0).val ∧ (i 0).val < win0_5.index _ (0 : Fin 2) * 2000 + 2000
    omega
  | ⟨1, _⟩ =>
    show win0_5.index _ (1 : Fin 2) * 256 ≤ (i 1).val ∧ (i 1).val < win0_5.index _ (1 : Fin 2) * 256 + 256
    omega

/-- THE ARRAY after the run is `out`. -/
theorem final (c : Dev nD) : (dats m 0 c).arrAt 5 cfg0.N = out m c :=
  (dats m 0 c).arrAt_eq_of_cover 5 (out m c) (fun t _ => flushed_eq m c t) cover

/-- The kernel's run with the output array named: `out` of the staged arrays, the arguments unchanged. -/
theorem run : θ_run defs (onTc (τ := τ) (main (F := Ideal))) ⟨m, fun _ => 0, ρ⟩ fun r => ∀ c : Dev nD,
      r.2.mem ((c : Thread nD τ).loc main_v20) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.RefValue.lean ====
/-
  The reference's result is the perceptron of its gathered features.

  After the gather and the reshape, the reference multiplies the 100000 × 1280 feature matrix by the first weight
  matrix, adds the first bias along the rows, clamps at zero, multiplies by the second weight matrix and adds the
  second bias. Read at an index `(r, q)`, each product is the sum over its contracted axis and each bias is read at
  its column, which is the specification's entry of feature row `r` — term for term, with no law of arithmetic used.
-/
import proofs.«104680_j22625887715771_1_alg».proof.Proof.Gen.ReferenceIdeal.Read
import proofs.«104680_j22625887715771_1_alg».proof.Proof.MlpSpec

noncomputable section

namespace Cert.ReferenceIdeal.RefValue

open Cert.ReferenceIdeal Cert.ReferenceIdeal.Read Idealize.ShloMosaic Idealize.ShloMosaic.TcCoe Idealize.ShloMosaic.ValueIdx
open scoped BigOperators

variable (x0 : Vec Ideal S50000x256 .f32) (x2 : Vec Ideal S50000 .i32) (x4 : Vec Ideal S500000 .i32)
  (x5 : Vec Ideal S1280x256 .f32) (x6 : Vec Ideal S256 .f32) (x7 : Vec Ideal S256x256 .f32) (x8 : Vec Ideal S256 .f32)

/-- The hidden layer at `(r, k)`: feature row `r` against column `k` of the first weights, plus the first bias at
    `k`, clamped at zero. -/
theorem hidden_eq (r : Fin 100000) (k : Fin 256) :
    val_main_v20 (F := Ideal) x0 x2 x4 x5 x6 (ix2 r k)
      = Cert.Mlp.hidden (fun j => val_main_v15 (F := Ideal) x0 x2 x4 (ix2 r j)) (fun j k => x5 (ix2 j k))
          (fun k => x6 (ix1 k)) k := by
  rw [val_main_v20_apply, val_main_v19_apply, val_main_v16_apply, val_main_v18_apply, val_main_v17_apply,
    val_main_call0_v0_apply, val_main_call0_cst_apply]
  have e1 : ∀ j : Fin 1280, lidx_main_v16 (ix2 r k) j = ix2 r j := fun j => funext fun a => by
    match a with
    | ⟨0, _⟩ => rfl
    | ⟨1, _⟩ => rfl
  have e2 : ∀ j : Fin 1280, ridx_main_v16 (ix2 r k) j = ix2 j k := fun j => funext fun a => by
    match a with
    | ⟨0, _⟩ => rfl
    | ⟨1, _⟩ => rfl
  have e3 : idx_main_v17 (idx_main_v18 (ix2 r k)) = ix1 k := funext fun a => by
    match a with
    | ⟨0, _⟩ => rfl
  simp only [e1, e2, e3]
  rfl

/-- THE REFERENCE'S RESULT: the perceptron of its gathered features, its weights and its biases. -/
theorem result_eq :
    val_main_v24 (F := Ideal) x0 x2 x4 x5 x6 x7 x8 = Cert.Mlp.mlp (val_main_v15 (F := Ideal) x0 x2 x4) x5 x6 x7 x8 := by
  funext i
  obtain ⟨r, q, rfl⟩ : ∃ (r : Fin 100000) (q : Fin 256), i = ix2 r q := ⟨i 0, i 1, eq_ix2 i⟩
  rw [val_main_v24_apply, val_main_v21_apply, val_main_v23_apply, val_main_v22_apply]
  have e1 : ∀ k : Fin 256, lidx_main_v21 (ix2 r q) k = ix2 r k := fun k => funext fun a => by
    match a with
    | ⟨0, _⟩ => rfl
    | ⟨1, _⟩ => rfl
  have e2 : ∀ k : Fin 256, ridx_main_v21 (ix2 r q) k = ix2 k q := fun k => funext fun a => by
    match a with
    | ⟨0, _⟩ => rfl
    | ⟨1, _⟩ => rfl
  have e3 : idx_main_v22 (idx_main_v23 (ix2 r q)) = ix1 q := funext fun a => by
    match a with
    | ⟨0, _⟩ => rfl
  simp only [e1, e2, e3, hidden_eq]
  rfl

end Cert.ReferenceIdeal.RefValue

end
-- ==== Proof.Bridge.lean ====
/-
  The arrays the kernel's region stages, in terms of the arguments, and the kernel's output as the perceptron of them.

  Before the region the kernel's host operations build exactly what the reference builds first: negative indices
  are shifted by 100000, the 50000 down-node rows are scattered into a zero 100000 × 256 table, 500000 rows of the
  table are gathered, and the result is laid out as 100000 rows of 1280. The same operations on the same arguments
  are the same array, so nothing about scatter or gather is opened: the kernel's feature matrix IS the reference's
  stage. The weights are converted to a narrower float format, which on the extended reals changes nothing, and each
  bias is recast as one row, whose entry `(0, k)` is the bias's entry `k`.
-/
import proofs.«104680_j22625887715771_1_alg».proof.Proof.KernelValue
import proofs.«104680_j22625887715771_1_alg».proof.Proof.RefValue
import Idealize.ShloMosaic.Lib.StableHlo.Run

noncomputable section

namespace Cert.Bridge

open Idealize.ShloMosaic Idealize.ShloMosaic.TcCoe Idealize.SL.Sem Idealize.ShloMosaic.StableHlo
open Idealize.ShloMosaic.ValueIdx
open Cert.KernelIdeal Cert.KernelIdeal.Gen Cert.KernelIdeal.Whole

variable (m : (ℓ : Loc nD τ sig) → Buf (Elt Ideal) ℓ)

/-- The argument arrays as launched, at their literal types. -/
abbrev aH (c : Dev nD) : Vec Ideal S50000x256 .f32 := m ((c : Thread nD τ).loc main_arg0)
abbrev aIdx (c : Dev nD) : Vec Ideal S50000 .i32 := m ((c : Thread nD τ).loc main_arg2)
abbrev aJ (c : Dev nD) : Vec Ideal S500000 .i32 := m ((c : Thread nD τ).loc main_arg4)
abbrev aW1 (c : Dev nD) : Vec Ideal S1280x256 .f32 := m ((c : Thread nD τ).loc main_arg5)
abbrev aB1 (c : Dev nD) : Vec Ideal S256 .f32 := m ((c : Thread nD τ).loc main_arg6)
abbrev aW2 (c : Dev nD) : Vec Ideal S256x256 .f32 := m ((c : Thread nD τ).loc main_arg7)
abbrev aB2 (c : Dev nD) : Vec Ideal S256 .f32 := m ((c : Thread nD τ).loc main_arg8)

set_option maxHeartbeats 2000000 in
/-- The feature matrix the region finds is the reference's gathered and reshaped stage of the same arguments. -/
theorem feat_eq (c : Dev nD) :
    feat m c = Cert.ReferenceIdeal.Read.val_main_v15 (F := Ideal) (aH m c) (aIdx m c) (aJ m c) := by
  show V m c main_v15 = _
  dsimp only [Gen.V, Gen.hostOps0]
  after_results_simp <;> rfl

/-- The first weights the region finds are the argument's: the format change is the identity. -/
theorem wt1_eq (c : Dev nD) : wt1 m c = aW1 m c := by
  show V m c main_v16 = _
  dsimp only [Gen.V, Gen.hostOps0]
  after_results
  rfl

/-- The second weights the region finds are the argument's: the format change is the identity. -/
theorem wt2_eq (c : Dev nD) : wt2 m c = aW2 m c := by
  show V m c main_v17 = _
  dsimp only [Gen.V, Gen.hostOps0]
  after_results
  rfl

/-- A vector of 256 recast as one row, read at `(0, k)`, is its entry `k`. -/
theorem row_apply (b : Vec Ideal S256 .f32) (k : Fin 256) :
    shapeCast S1x256 b shapeCasts_S256_S1x256 (ix2 0 k) = b (ix1 k) :=
  shapeCast_apply b shapeCasts_S256_S1x256 (ix2 0 k) (ix1 k) (by
    rewrite [Shape.rowMajor_val_one, Shape.rowMajor_val_two]
    show k.val = 0 * 256 + k.val
    omega)

/-- The first bias row the region finds, at `(0, k)`, is the argument's entry `k`. -/
theorem bias1_eq (c : Dev nD) (k : Fin 256) : bias1 m c (ix2 0 k) = aB1 m c (ix1 k) := by
  have e : bias1 m c = shapeCast S1x256 (aB1 m c) shapeCasts_S256_S1x256 := by
    show V m c main_v18 = _
    dsimp only [Gen.V, Gen.hostOps0]
    after_results
    rfl
  rw [e, row_apply]

/-- The second bias row the region finds, at `(0, q)`, is the argument's entry `q`. -/
theorem bias2_eq (c : Dev nD) (q : Fin 256) : bias2 m c (ix2 0 q) = aB2 m c (ix1 q) := by
  have e : bias2 m c = shapeCast S1x256 (aB2 m c) shapeCasts_S256_S1x256 := by
    show V m c main_v19 = _
    dsimp only [Gen.V, Gen.hostOps0]
    after_results
    rfl
  rw [e, row_apply]

/-- THE KERNEL'S OUTPUT ARRAY is the perceptron of the reference's gathered features of the same arguments, the
    weights and the biases as launched. -/
theorem out_eq (c : Dev nD) :
    out m c = Cert.Mlp.mlp (Cert.ReferenceIdeal.Read.val_main_v15 (F := Ideal) (aH m c) (aIdx m c) (aJ m c))
      (aW1 m c) (aB1 m c) (aW2 m c) (aB2 m c) := by
  funext i
  obtain ⟨r, q, rfl⟩ : ∃ (r : Fin 100000) (q : Fin 256), i = ix2 r q := ⟨i 0, i 1, eq_ix2 i⟩
  show Cert.Mlp.entry (fun j => feat m c (ix2 r j)) (fun j k => wt1 m c (ix2 j k)) (fun k => bias1 m c (ix2 0 k))
      (fun k => wt2 m c (ix2 k q)) (bias2 m c (ix2 0 q))
    = Cert.Mlp.entry (fun j => Cert.ReferenceIdeal.Read.val_main_v15 (F := Ideal) (aH m c) (aIdx m c) (aJ m c) (ix2 r j))
      (fun j k => aW1 m c (ix2 j k)) (fun k => aB1 m c (ix1 k)) (fun k => aW2 m c (ix2 k q)) (aB2 m c (ix1 q))
  rw [feat_eq, wt1_eq, wt2_eq, bias2_eq,
    show (fun k => bias1 m c (ix2 0 k)) = (fun k => aB1 m c (ix1 k)) from funext fun k => bias1_eq m c k]

end Cert.Bridge

end
-- ==== Proof.lean ====
/-
  A fused two-layer perceptron over gathered node features, against its plain reference.

  Both programs first build the same 100000 × 1280 feature matrix on the host: the 50000 down-node rows are
  scattered into a zero 100000 × 256 table at the (sign-normalised) positions `idx`, 500000 rows of the table are
  gathered at the (sign-normalised) positions `j`, and every five consecutive gathered rows are laid side by side.
  The reference then computes `max(X·W1 + b1, 0)·W2 + b2` with two whole matrix products. The kernel computes the
  same thing tile by tile: 50 grid points, each staging 2000 rows of `X` together with the weights (converted to a
  narrower float format) and the biases (recast as rows), and writing 2000 rows of the result.

  On the extended reals a change of float format is the identity and a matrix product into a zero accumulator is
  the plain sum over the contracted axis, so an entry `(r, q)` of either result is

      Σ_k max (Σ_j X[r, j] · W1[j, k] + b1[k], 0) · W2[k, q] + b2[q],

  with the sums in the same order and the factors on the same sides in both programs: the two results are equal
  term for term, and no law of arithmetic — hence no finiteness of the inputs — is used. The host prefix is never
  opened: it is the same operations on the same arguments in both programs.

  The kernel's three facts that need a run — that it terminates without a fault and leaves its arguments alone,
  word-level and idealised — are the generated frames; the reference's is its generated run with the result dropped;
  the idealisation rewrote nothing, so there is nothing to preserve.
-/
import proofs.«104680_j22625887715771_1_alg».proof.Defs
import proofs.«104680_j22625887715771_1_alg».proof.Proof.Gen.Kernel
import proofs.«104680_j22625887715771_1_alg».proof.Proof.Gen.Kernel.Skeleton
import proofs.«104680_j22625887715771_1_alg».proof.Proof.Gen.Kernel.Launch
import proofs.«104680_j22625887715771_1_alg».proof.Proof.Gen.Kernel.Points
import proofs.«104680_j22625887715771_1_alg».proof.Proof.Gen.Kernel.Frame
import proofs.«104680_j22625887715771_1_alg».proof.Proof.Gen.KernelIdeal
import proofs.«104680_j22625887715771_1_alg».proof.Proof.Gen.KernelIdeal.Skeleton
import proofs.«104680_j22625887715771_1_alg».proof.Proof.Gen.KernelIdeal.Launch
import proofs.«104680_j22625887715771_1_alg».proof.Proof.Gen.KernelIdeal.Points
import proofs.«104680_j22625887715771_1_alg».proof.Proof.Gen.KernelIdeal.Frame
import proofs.«104680_j22625887715771_1_alg».proof.Proof.Gen.ReferenceIdeal
import proofs.«104680_j22625887715771_1_alg».proof.Proof.Gen.Pre_finite_inputs
import proofs.«104680_j22625887715771_1_alg».proof.Proof.Gen.KernelIdeal.Value
import proofs.«104680_j22625887715771_1_alg».proof.Proof.Gen.ReferenceIdeal.Run
import proofs.«104680_j22625887715771_1_alg».proof.Proof.Gen.ReferenceIdeal.Read
import proofs.«104680_j22625887715771_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's output array ends at the perceptron of the gathered features of its arguments (the tiles cover
    the array); the reference's result is the perceptron of the gathered features of ITS arguments; the arguments
    agree. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Whole.out m c
  obtain ⟨h0, -, h2, -, h4, h5, h6, h7, h8⟩ := hagree c
  rw [Cert.ReferenceIdeal.Read.val_main_v24_eq, Cert.ReferenceIdeal.RefValue.result_eq, Cert.Bridge.out_eq,
    h0, h2, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
